-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x4096x4096 .f32) (main_arg1 : FVec F S256x4096 .f32) (main_arg2 : FVec F S256 .f32) (main_arg3 : FVec F S64x256 .f32) (main_arg4 : FVec F S64 .f32) (main_arg5 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_v13 main_v16
-- ==== Kernel.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S16384x4096 : Shape := ⟨2, ![16384, 4096]⟩
abbrev S4096x256 : Shape := ⟨2, ![4096, 256]⟩
abbrev S256x64 : Shape := ⟨2, ![256, 64]⟩
abbrev S1x256 : Shape := ⟨2, ![1, 256]⟩
abbrev S1x64 : Shape := ⟨2, ![1, 64]⟩
abbrev S16384x64 : Shape := ⟨2, ![16384, 64]⟩
abbrev S1024x2048 : Shape := ⟨2, ![1024, 2048]⟩
abbrev S2048x256 : Shape := ⟨2, ![2048, 256]⟩
abbrev S1024x64 : Shape := ⟨2, ![1024, 64]⟩
abbrev S1024x256 : Shape := ⟨2, ![1024, 256]⟩
abbrev S4x4096x64 : Shape := ⟨3, ![4, 4096, 64]⟩

abbrev nBuf : Space → Nat
  | .hbm => 16
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S256x4096, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S16384x4096, .f32⟩
  | .hbm, ⟨7, _⟩ => ⟨S4096x256, .f32⟩
  | .hbm, ⟨8, _⟩ => ⟨S4096x256, .bf16⟩
  | .hbm, ⟨9, _⟩ => ⟨S256x64, .f32⟩
  | .hbm, ⟨10, _⟩ => ⟨S256x64, .bf16⟩
  | .hbm, ⟨11, _⟩ => ⟨S1x256, .f32⟩
  | .hbm, ⟨12, _⟩ => ⟨S64, .f32⟩
  | .hbm, ⟨13, _⟩ => ⟨S1x64, .f32⟩
  | .hbm, ⟨14, _⟩ => ⟨S16384x64, .f32⟩
  | .hbm, ⟨15, _⟩ => ⟨S4x4096x64, .f32⟩
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S256x64, .bf16⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | .local _ .vmem, ⟨9, _⟩ => ⟨S1024x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x4096x4096_S16384x4096 : S4x4096x4096.ShapeCasts S16384x4096
  transposes_S256x4096_S4096x256_1_0 : S256x4096.Transposes [1, 0] S4096x256
  bitsLt_bf16_f32 : FTy.bits .bf16 < FTy.bits .f32
  transposes_S64x256_S256x64_1_0 : S64x256.Transposes [1, 0] S256x64
  shapeCasts_S256_S1x256 : S256.ShapeCasts S1x256
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S16384x64_S4x4096x64 : S16384x64.ShapeCasts S4x4096x64
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .f32 = 32 ∨ (Rect.block (s := S16384x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .bf16 = 32 ∨ (Rect.block (s := S4096x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S16384x4096 : Shape := ⟨2, ![16384, 4096]⟩
abbrev S4096x256 : Shape := ⟨2, ![4096, 256]⟩
abbrev S16384x256 : Shape := ⟨2, ![16384, 256]⟩
abbrev S1x256 : Shape := ⟨2, ![1, 256]⟩
abbrev S_ : Shape := ⟨0, ![]⟩
abbrev S256x64 : Shape := ⟨2, ![256, 64]⟩
abbrev S16384x64 : Shape := ⟨2, ![16384, 64]⟩
abbrev S1x64 : Shape := ⟨2, ![1, 64]⟩
abbrev S4x4096x64 : Shape := ⟨3, ![4, 4096, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S256x4096, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S16384x4096, .f32⟩
  | .hbm, ⟨7, _⟩ => ⟨S4096x256, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S256x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4x4096x4096_S16384x4096 : S4x4096x4096.ShapeCasts S16384x4096
  transposes_S256x4096_S4096x256_1_0 : S256x4096.Transposes [1, 0] S4096x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S4x4096x64 : S16384x64.ShapeCasts S4x4096x64
  dot_S16384x4096_S4096x256_S16384x256_1_0_0_1_n_n_wf : DotDims.WF S16384x4096 S4096x256 S16384x256 [1] [0] [0] [1] [] []
  dot_S16384x256_S256x64_S16384x64_1_0_0_1_n_n_wf : DotDims.WF S16384x256 S256x64 S16384x64 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf

class Facts : Prop extends Facts₀ where

variable [Facts]
-- ==== Proof.RouterSpec.lean ====
/-
  The router's logits as ONE function of the operand arrays, over the extended reals.

  With X the tokens flattened to [16384, 4096], W1ᵀ [4096, 256], b1 [256], W2ᵀ [256, 64] and the two output
  biases b2, eb [64], the two-layer perceptron is

      logits[r, e] = ((Σ_j max(Σ_c X[r,c]·W1ᵀ[c,j] + b1[j], z) · W2ᵀ[j,e]) + b2[e]) + eb[e]

  (z the word the rectifier compares with). The kernel computes the inner contraction in two halves of 2048
  columns each, keeps the first half's partial products in a scratch block, adds the second half to it, and adds
  the two output biases already summed: `logitsSplit`. The two are equal on every extended real, because only the
  commutative-monoid laws of `+` are used: a sum over 4096 indices is the sum over the first 2048 plus the sum
  over the last 2048 (`sum_halves`), and `(a + b) + c = a + (b + c)`. No finiteness is needed.
-/
import Idealize.ShloMosaic.PureOps.Ideal
import Idealize.ShloMosaic.Lib.ValueIdx
import Mathlib.Algebra.BigOperators.Fin

noncomputable section

open scoped BigOperators

namespace Cert.RouterSpec

open Idealize.ShloMosaic Idealize.ShloMosaic.ValueIdx

/-- A column index in the first half of the contraction axis. -/
abbrev lo (c : Fin 2048) : Fin 4096 := ⟨c.val, by have := c.isLt; omega⟩
/-- A column index in the second half of the contraction axis. -/
abbrev hi (c : Fin 2048) : Fin 4096 := ⟨2048 + c.val, by have := c.isLt; omega⟩

/-- A sum over the 4096 columns is the sum over the first 2048 plus the sum over the last 2048. -/
theorem sum_halves {M : Type*} [AddCommMonoid M] (f : Fin 4096 → M) :
    ∑ c : Fin 4096, f c = (∑ c : Fin 2048, f (lo c)) + ∑ c : Fin 2048, f (hi c) :=
  Fin.sum_univ_add (a := 2048) (b := 2048) f

variable (X : (⟨2, ![16384, 4096]⟩ : Shape).Idx → EReal) (W1t : (⟨2, ![4096, 256]⟩ : Shape).Idx → EReal)
  (W2t : (⟨2, ![256, 64]⟩ : Shape).Idx → EReal) (z : EReal)

/-- The first layer's contraction at token `r`, hidden unit `j`. -/
def proj (r : Fin 16384) (j : Fin 256) : EReal := ∑ c : Fin 4096, X (ix2 r c) * W1t (ix2 c j)
/-- Its first half: columns 0 … 2047. -/
def projLo (r : Fin 16384) (j : Fin 256) : EReal := ∑ c : Fin 2048, X (ix2 r (lo c)) * W1t (ix2 (lo c) j)
/-- Its second half: columns 2048 … 4095. -/
def projHi (r : Fin 16384) (j : Fin 256) : EReal := ∑ c : Fin 2048, X (ix2 r (hi c)) * W1t (ix2 (hi c) j)

theorem proj_split (r : Fin 16384) (j : Fin 256) : proj X W1t r j = projLo X W1t r j + projHi X W1t r j :=
  sum_halves fun c => X (ix2 r c) * W1t (ix2 c j)

/-- The reference's value at token `r`, expert `e`: the whole contraction, the hidden bias, the rectifier, the
    second layer, then the two output biases added one after the other. -/
def logitsAt (b1 : (⟨1, ![256]⟩ : Shape).Idx → EReal) (b2 eb : (⟨1, ![64]⟩ : Shape).Idx → EReal)
    (r : Fin 16384) (e : Fin 64) : EReal :=
  ((∑ j : Fin 256, max (proj X W1t r j + b1 (ix1 j)) z * W2t (ix2 j e)) + b2 (ix1 e)) + eb (ix1 e)

/-- The kernel's value there: the contraction in two halves, the biases as rows, the output biases already summed. -/
def logitsSplitAt (b1row : (⟨2, ![1, 256]⟩ : Shape).Idx → EReal) (brow : (⟨2, ![1, 64]⟩ : Shape).Idx → EReal)
    (r : Fin 16384) (e : Fin 64) : EReal :=
  (∑ j : Fin 256, max ((projLo X W1t r j + projHi X W1t r j) + b1row (ix2 0 j)) z * W2t (ix2 j e)) + brow (ix2 0 e)

/-- The two agree when the kernel's bias rows are the reference's bias vectors (the output row their sum). -/
theorem logitsSplitAt_eq (b1 : (⟨1, ![256]⟩ : Shape).Idx → EReal) (b2 eb : (⟨1, ![64]⟩ : Shape).Idx → EReal)
    (b1row : (⟨2, ![1, 256]⟩ : Shape).Idx → EReal) (brow : (⟨2, ![1, 64]⟩ : Shape).Idx → EReal)
    (h1 : ∀ j : Fin 256, b1row (ix2 0 j) = b1 (ix1 j))
    (h2 : ∀ e : Fin 64, brow (ix2 0 e) = b2 (ix1 e) + eb (ix1 e)) (r : Fin 16384) (e : Fin 64) :
    logitsSplitAt X W1t W2t z b1row brow r e = logitsAt X W1t W2t z b1 b2 eb r e := by
  unfold logitsSplitAt logitsAt
  rw [h2 e, ← add_assoc]
  refine congrArg (· + b2 (ix1 e) + eb (ix1 e)) (Finset.sum_congr rfl fun j _ => ?_)
  rw [h1 j, ← proj_split]

/-- The logits as an array over [16384, 64]. -/
def logits (b1 : (⟨1, ![256]⟩ : Shape).Idx → EReal) (b2 eb : (⟨1, ![64]⟩ : Shape).Idx → EReal) :
    (⟨2, ![16384, 64]⟩ : Shape).Idx → EReal := fun i => logitsAt X W1t W2t z b1 b2 eb (i 0) (i 1)

/-- The kernel's form as an array over [16384, 64]. -/
def logitsSplit (b1row : (⟨2, ![1, 256]⟩ : Shape).Idx → EReal) (brow : (⟨2, ![1, 64]⟩ : Shape).Idx → EReal) :
    (⟨2, ![16384, 64]⟩ : Shape).Idx → EReal := fun i => logitsSplitAt X W1t W2t z b1row brow (i 0) (i 1)

theorem logitsSplit_eq (b1 : (⟨1, ![256]⟩ : Shape).Idx → EReal) (b2 eb : (⟨1, ![64]⟩ : Shape).Idx → EReal)
    (b1row : (⟨2, ![1, 256]⟩ : Shape).Idx → EReal) (brow : (⟨2, ![1, 64]⟩ : Shape).Idx → EReal)
    (h1 : ∀ j : Fin 256, b1row (ix2 0 j) = b1 (ix1 j))
    (h2 : ∀ e : Fin 64, brow (ix2 0 e) = b2 (ix1 e) + eb (ix1 e)) :
    logitsSplit X W1t W2t z b1row brow = logits X W1t W2t z b1 b2 eb :=
  funext fun i => logitsSplitAt_eq X W1t W2t z b1 b2 eb b1row brow h1 h2 (i 0) (i 1)

end Cert.RouterSpec

end
-- ==== Proof.RefSide.lean ====
/-
  The reference computes the specification's logits.

  Its host program flattens the tokens to [16384, 4096] (X), transposes W1 and W2, contracts X with W1ᵀ, adds the
  hidden bias broadcast down the rows, takes the maximum with the zero word, contracts with W2ᵀ, adds b2 and then the
  expert bias, each broadcast down the rows, and reshapes to [4, 4096, 64]. Read one operation at a time at the
  element (r, e), that is RouterSpec's logitsAt of X, W1ᵀ, W2ᵀ and the three bias vectors: the operand indices the
  generated reading names are the coordinate pairs (r, c), (c, j), (r, j), (j, e), and the two broadcasts of a
  bias read its entry j (or e).
-/
import proofs.«128491_g21182778703903_cont_8to1_173_18_alg».proof.Proof.Gen.ReferenceIdeal.Read
import proofs.«128491_g21182778703903_cont_8to1_173_18_alg».proof.Proof.RouterSpec

noncomputable section

open scoped BigOperators

namespace Cert.ReferenceIdeal.RefValue

open Cert.ReferenceIdeal Cert.ReferenceIdeal.Read Idealize.ShloMosaic Idealize.ShloMosaic.ValueIdx Cert.RouterSpec

variable (x0 : (⟨S4x4096x4096, .f32⟩ : BufTy).Contents (Elt Ideal)) (x1 : (⟨S256x4096, .f32⟩ : BufTy).Contents (Elt Ideal))
  (x2 : (⟨S256, .f32⟩ : BufTy).Contents (Elt Ideal)) (x3 : (⟨S64x256, .f32⟩ : BufTy).Contents (Elt Ideal))
  (x4 x5 : (⟨S64, .f32⟩ : BufTy).Contents (Elt Ideal))

/-- The hidden activation at (r, j): the contraction of token r with column j of W1ᵀ, plus b1[j], rectified. -/
theorem hidden_at (r : Fin 16384) (j : Fin 256) :
    val_main_v6 (F := Ideal) x0 x1 x2 (ix2 r j)
      = max (proj (val_main_v0 (F := Ideal) x0) (val_main_v1 (F := Ideal) x1) r j + x2 (ix1 j)) (Ideal.ofBits .f32 0x00000000#32) := by
  have el : ∀ k : Fin 4096, lidx_main_v2 (ix2 r j) k = ix2 r k := fun k =>
    funext fun a => by match a with | ⟨0, _⟩ => rfl | ⟨1, _⟩ => rfl
  have er : ∀ k : Fin 4096, ridx_main_v2 (ix2 r j) k = ix2 k j := fun k =>
    funext fun a => by match a with | ⟨0, _⟩ => rfl | ⟨1, _⟩ => rfl
  have eb : idx_main_v3 (idx_main_v4 (ix2 r j)) = ix1 j :=
    funext fun a => by match a with | ⟨0, _⟩ => rfl
  rw [val_main_v6_apply, val_main_v5_apply, val_main_v2_apply, val_main_v4_apply, val_main_v3_apply,
    val_main_call0_v0_apply, val_main_call0_cst_apply, eb]
  simp only [el, er]
  rfl

/-- The flat logits at (r, e). -/
theorem flat_at (r : Fin 16384) (e : Fin 64) :
    val_main_v14 (F := Ideal) x0 x1 x2 x3 x4 x5 (ix2 r e)
      = logitsAt (val_main_v0 (F := Ideal) x0) (val_main_v1 (F := Ideal) x1) (val_main_v7 (F := Ideal) x3)
          (Ideal.ofBits .f32 0x00000000#32) x2 x4 x5 r e := by
  have el : ∀ k : Fin 256, lidx_main_v8 (ix2 r e) k = ix2 r k := fun k =>
    funext fun a => by match a with | ⟨0, _⟩ => rfl | ⟨1, _⟩ => rfl
  have er : ∀ k : Fin 256, ridx_main_v8 (ix2 r e) k = ix2 k e := fun k =>
    funext fun a => by match a with | ⟨0, _⟩ => rfl | ⟨1, _⟩ => rfl
  have e4 : idx_main_v9 (idx_main_v10 (ix2 r e)) = ix1 e :=
    funext fun a => by match a with | ⟨0, _⟩ => rfl
  have e5 : idx_main_v12 (idx_main_v13 (ix2 r e)) = ix1 e :=
    funext fun a => by match a with | ⟨0, _⟩ => rfl
  rw [val_main_v14_apply, val_main_v11_apply, val_main_v8_apply, val_main_v10_apply, val_main_v9_apply,
    val_main_v13_apply, val_main_v12_apply, e4, e5]
  simp only [el, er, hidden_at]
  rfl

/-- The flat logits are the specification's array. -/
theorem flat_eq :
    val_main_v14 (F := Ideal) x0 x1 x2 x3 x4 x5
      = logits (val_main_v0 (F := Ideal) x0) (val_main_v1 (F := Ideal) x1) (val_main_v7 (F := Ideal) x3)
          (Ideal.ofBits .f32 0x00000000#32) x2 x4 x5 := by
  funext i
  obtain ⟨r, e, rfl⟩ : ∃ (r : Fin 16384) (e : Fin 64), i = ix2 r e := ⟨i 0, i 1, eq_ix2 i⟩
  exact flat_at x0 x1 x2 x3 x4 x5 r e

end Cert.ReferenceIdeal.RefValue

end
-- ==== Proof.Pieces.lean ====
/-
  What each of the body's two control cases leaves behind, as values.

  At the first point of a row block (k = 0) the body stores the partial product of its two input tiles into the
  scratch block, whole; at the second (k = 1) it stores, whole, into the output block the epilogue of its input
  tiles and of what the scratch block held. Each case has one covering store, so what the buffer reads back is
  that store's payload, whose loads read the whole staging buffers.
-/
import proofs.«128491_g21182778703903_cont_8to1_173_18_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- CASE k = 0: the scratch block ends holding the partial product of the point's token tile and weight tile. -/
theorem scratch_first (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S256x64 .bf16) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .bf16) (x2 : Vec F S1x256 .f32) (x3 : Vec F S256x64 .bf16) (x4 : Vec F S1x64 .f32) :
    sout0_A_0 c i arg2 harg2 arg3 harg3 arg4 harg4 arg5 harg5 arg6 harg6 arg7 harg7 arg8 harg8 hc0 hc1 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero hz]
  simp only [View.readAt_eq_ld, harg2.read_unread, harg3.read_unread, View.ld_unit_zero (S := S1024x2048) hz,
    View.ld_unit_zero (S := S2048x256) hz]

/-- CASE k = 1: the output block ends holding the epilogue of the point's tiles over what the scratch block held. -/
theorem out_second (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S256x64 .bf16) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .bf16) (x2 : Vec F S1x256 .f32) (x3 : Vec F S256x64 .bf16) (x4 : Vec F S1x64 .f32) (xs0 : Vec F S1024x256 .f32) :
    out0_B_5 c i arg2 harg2 arg3 harg3 arg4 harg4 arg5 harg5 arg6 harg6 arg7 harg7 arg8 harg8 hc0 hc1 x0 x1 x2 x3 x4 xs0 = k0_pay3 x0 x1 xs0 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread,
    harg6.read_unread, harg8.read_unread, View.ld_unit_zero (S := S1024x2048) hz, View.ld_unit_zero (S := S2048x256) hz,
    View.ld_unit_zero (S := S1024x256) hz, View.ld_unit_zero (S := S1x256) hz, View.ld_unit_zero (S := S256x64) hz,
    View.ld_unit_zero (S := S1x64) hz]

end Cert.KernelIdeal.Pieces

end
-- ==== Proof.Payload.lean ====
/-
  The kernel body's arithmetic read at one element, over the extended reals.

  A grid point sees a [1024, 2048] tile of the tokens and the matching [2048, 256] tile of W1ᵀ. Their product at
  (p, j) is the sum over the tile's 2048 columns of token entry times weight entry (partial_apply): the
  narrowing to bf16 is the identity on extended reals and the accumulator is the zero splat. At the second point
  of a row block the body adds that product to what the first point left in the scratch block, adds the hidden
  bias row, rectifies, multiplies by the [256, 64] second-layer weights and adds the output bias row: at (p, e)

      (Σ_j max((acc[p,j] + Σ_c x[p,c]·w1[c,j]) + b1[0,j], z) · w2[j,e]) + b[0,e]        (epilogue_apply).
-/
import proofs.«128491_g21182778703903_cont_8to1_173_18_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The first product's operand indices, axis by axis: output (p, j), contraction c ↦ token (p, c), weight (c, j) -/

theorem lhs_partial_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_partial_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_partial_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_partial_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-! ## The second product's: output (p, e), contraction j ↦ hidden (p, j), weight (j, e) -/

theorem lhs_second_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_second_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_second_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_second_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-! ## The two products at an element -/

/-- The first layer's partial product of a [1024, 2048] token tile and a [2048, 256] weight tile, at (p, j): the
    sum over the tile's columns. -/
theorem partial_apply (a : FVec Ideal S1024x2048 .bf16) (b : FVec Ideal S2048x256 .bf16) (p : Fin 1024) (j : Fin 256) :
    matmul dot_S1024x2048_S2048x256_S1024x256_1_0_0_1_n_n none a b (constant S1024x256 .f32 0x00000000#32) (ix2 p j)
      = ∑ k : Fin 2048, a (ix2 p k) * b (ix2 k j) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p j) ((contrEquiv1 dot_S1024x2048_S2048x256_S1024x256_1_0_0_1_n_n 2048 rfl rfl).symm k) = ix2 p k := funext fun a => Fin.ext (by
    match a with
    | ⟨0, _⟩ => exact lhs_partial_0 _ _
    | ⟨1, _⟩ => exact (lhs_partial_1 _ _).trans hk)
  have er : dot_S1024x2048_S2048x256_S1024x256_1_0_0_1_n_n.rhsIdx (ix2 p j) ((contrEquiv1 dot_S1024x2048_S2048x256_S1024x256_1_0_0_1_n_n 2048 rfl rfl).symm k) = ix2 k j := funext fun a => Fin.ext (by
    match a with
    | ⟨0, _⟩ => exact (rhs_partial_0 _ _).trans hk
    | ⟨1, _⟩ => exact rhs_partial_1 _ _)
  rw [el, er]

/-- The second layer's product of the [1024, 256] hidden block and the [256, 64] weights, at (p, e): the sum over
    the hidden units. -/
theorem second_apply (a : FVec Ideal S1024x256 .bf16) (b : FVec Ideal S256x64 .bf16) (p : Fin 1024) (e : Fin 64) :
    matmul dot_S1024x256_S256x64_S1024x64_1_0_0_1_n_n none a b (constant S1024x64 .f32 0x00000000#32) (ix2 p e)
      = ∑ k : Fin 256, a (ix2 p k) * b (ix2 k e) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p e) ((contrEquiv1 dot_S1024x256_S256x64_S1024x64_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S1024x256_S256x64_S1024x64_1_0_0_1_n_n.rhsIdx (ix2 p e) ((contrEquiv1 dot_S1024x256_S256x64_S1024x64_1_0_0_1_n_n 256 rfl rfl).symm k) = ix2 k e := funext fun a => Fin.ext (by
    match a with
    | ⟨0, _⟩ => exact (rhs_second_0 _ _).trans hk
    | ⟨1, _⟩ => exact rhs_second_1 _ _)
  rw [el, er]

/-! ## A bias row broadcast down the rows -/

/-- The [1, 256] hidden-bias row broadcast to [1024, 256] reads, at (p, j), the row's entry j. -/
theorem hiddenRow_apply {α : Type} (v : S1x256.Idx → α) (p : Fin 1024) (j : Fin 256) :
    broadcastTo S1024x256 v broadcasts_S1x256_S1024x256 (ix2 p j) = v (ix2 0 j) :=
  broadcastTo_apply v broadcasts_S1x256_S1024x256 (ix2 p j) (ix2 0 j) (fun a => match a with
    | ⟨0, _⟩ => by show 0 = if (1 : Nat) = 1 then 0 else p.val; rw [if_pos rfl]
    | ⟨1, _⟩ => by show j.val = if (256 : Nat) = 1 then 0 else j.val; rw [if_neg (by decide)])

/-- The [1, 64] output-bias row broadcast to [1024, 64] reads, at (p, e), the row's entry e. -/
theorem outRow_apply {α : Type} (v : S1x64.Idx → α) (p : Fin 1024) (e : Fin 64) :
    broadcastTo S1024x64 v broadcasts_S1x64_S1024x64 (ix2 p e) = v (ix2 0 e) :=
  broadcastTo_apply v broadcasts_S1x64_S1024x64 (ix2 p e) (ix2 0 e) (fun a => match a with
    | ⟨0, _⟩ => by show 0 = if (1 : Nat) = 1 then 0 else p.val; rw [if_pos rfl]
    | ⟨1, _⟩ => by show e.val = if (64 : Nat) = 1 then 0 else e.val; rw [if_neg (by decide)])

/-! ## The payloads at an element -/

/-- What the first point of a row block stores in the scratch block, at (p, j): the partial product. -/
theorem firstHalf_apply (x0 : Vec Ideal S1024x2048 .f32) (x1 : Vec Ideal S2048x256 .bf16) (p : Fin 1024) (j : Fin 256) :
    k0_pay2 x0 x1 (ix2 p j) = ∑ c : Fin 2048, x0 (ix2 p c) * x1 (ix2 c j) := by
  unfold k0_pay2 k0_pay1
  simp only [shapeCast_self]
  exact partial_apply _ _ p j

/-- What the second point stores in the output block, at (p, e). -/
theorem epilogue_apply (x0 : Vec Ideal S1024x2048 .f32) (x1 : Vec Ideal S2048x256 .bf16) (acc : Vec Ideal S1024x256 .f32)
    (b1row : Vec Ideal S1x256 .f32) (w2 : Vec Ideal S256x64 .bf16) (brow : Vec Ideal S1x64 .f32) (p : Fin 1024) (e : Fin 64) :
    k0_pay3 x0 x1 acc b1row w2 brow (ix2 p e)
      = (∑ j : Fin 256, max ((acc (ix2 p j) + ∑ c : Fin 2048, x0 (ix2 p c) * x1 (ix2 c j)) + b1row (ix2 0 j))
            (Ideal.ofBits .f32 0x00000000#32) * w2 (ix2 j e)) + brow (ix2 0 e) := by
  unfold k0_pay3 k0_pay1
  simp only [shapeCast_self]
  refine (addf_apply _ _ _).trans ?_
  refine congrArg₂ (· + ·) ((second_apply _ _ p e).trans (Finset.sum_congr rfl fun j _ => ?_)) (outRow_apply _ p e)
  refine congrArg (· * w2 (ix2 j e)) ?_
  refine (truncf_apply (ψ := FTy.bf16) _ bitsLt_bf16_f32 _).trans ?_
  refine (maximumf_apply _ _ _).trans ?_
  refine congrArg₂ max ?_ rfl
  refine (addf_apply _ _ _).trans ?_
  exact congrArg₂ (· + ·) ((addf_apply _ _ _).trans (congrArg (acc (ix2 p j) + ·) (partial_apply _ _ p j))) (hiddenRow_apply _ p j)

end Cert.KernelIdeal.Payload

end
-- ==== Proof.KernelValue.lean ====
/-
  What the kernel's result array holds after the run, at the ideal instance.

  The grid is 16 row blocks by 2 halves of the contraction axis; point t is row block t / 2, half t % 2. At an even
  point the body leaves, in the scratch block, the partial product of the row block's first 2048 token columns with
  the first 2048 rows of W1ᵀ; at the odd point that follows it adds the second half's product to it, adds the hidden
  bias, rectifies, multiplies by W2ᵀ and adds the output bias row, and only then is the [1024, 64] output block
  written back. So the block written back at an odd point t is block t / 2 of RouterSpec's logitsSplit of the arrays
  the region finds, the sixteen odd points' blocks tile the [16384, 64] array, and the array ends holding logitsSplit.
  The arrays the region finds are the host lines' values of the arguments (a reshape, two transposes, the bias row,
  the sum of the two output biases as a row), under which logitsSplit is the specification's logits; the line after
  the region reshapes the array to [4, 4096, 64].
-/
import proofs.«128491_g21182778703903_cont_8to1_173_18_alg».proof.Proof.Gen.KernelIdeal.Frame
import proofs.«128491_g21182778703903_cont_8to1_173_18_alg».proof.Proof.Pieces
import proofs.«128491_g21182778703903_cont_8to1_173_18_alg».proof.Proof.Payload
import proofs.«128491_g21182778703903_cont_8to1_173_18_alg».proof.Proof.RouterSpec
import Idealize.ShloMosaic.Lib.Pipeline.Value
import Idealize.ShloMosaic.Lib.StableHlo.Run

noncomputable section

open scoped BigOperators

namespace Cert.KernelIdeal.RouterValue

open Cert.KernelIdeal Cert.KernelIdeal.Gen Idealize.ShloMosaic Idealize.ShloMosaic.TcCoe Idealize.SL.Sem
open Idealize.ShloMosaic.ValueIdx Cert.RouterSpec
open Idealize.ShloMosaic.Pipeline (Dat)

variable (m : (ℓ : Loc nD τ sig) → Buf (Elt Ideal) ℓ) (ρ : Dev nD → PrngReg)

/-! ## The arrays the region finds, and the blocks a point reads, at their literal types -/

/-- The flattened tokens. -/
abbrev tokens (c : Dev nD) : S16384x4096.Idx → EReal := V m c main_v0
/-- W1ᵀ. -/
abbrev w1t (c : Dev nD) : S4096x256.Idx → EReal := V m c main_v2
/-- The hidden bias as a row. -/
abbrev b1row (c : Dev nD) : S1x256.Idx → EReal := V m c main_v5
/-- W2ᵀ. -/
abbrev w2t (c : Dev nD) : S256x64.Idx → EReal := V m c main_v4
/-- The summed output biases as a row. -/
abbrev brow (c : Dev nD) : S1x64.Idx → EReal := V m c main_v7

/-- The token tile point t reads. -/
abbrev tokTile (c : Dev nD) (t : Fin cfg0.N) : Vec Ideal S1024x2048 .f32 := iblk m c 0 t
/-- The W1ᵀ tile point t reads. -/
abbrev w1Tile (c : Dev nD) (t : Fin cfg0.N) : Vec Ideal S2048x256 .bf16 := iblk m c 1 t
/-- The hidden bias row as point t reads it. -/
abbrev b1Blk (c : Dev nD) (t : Fin cfg0.N) : Vec Ideal S1x256 .f32 := iblk m c 2 t
/-- W2ᵀ as point t reads it. -/
abbrev w2Blk (c : Dev nD) (t : Fin cfg0.N) : Vec Ideal S256x64 .bf16 := iblk m c 3 t
/-- The output bias row as point t reads it. -/
abbrev bBlk (c : Dev nD) (t : Fin cfg0.N) : Vec Ideal S1x64 .f32 := iblk m c 4 t

/-- The printed index maps over the grid: point t is row block t / 2, contraction half t % 2. -/
theorem idx_facts : ∀ t : Fin cfg0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- The token tile at (p, q) is the token array at row 1024·(t / 2) + p, column 2048·(t % 2) + q. -/
theorem tokTile_apply (c : Dev nD) (t : Fin cfg0.N) (p : Fin 1024) (q : Fin 2048) (r : Fin 16384) (k : Fin 4096)
    (hr : r.val = 1024 * (t.val / 2) + p.val) (hk : k.val = 2048 * (t.val % 2) + q.val) :
    tokTile m c t (ix2 p q) = tokens m c (ix2 r k) := by
  obtain ⟨e0, e1, -⟩ := idx_facts t
  show iblk m c 0 t (ix2 p q) = _
  unfold iblk
  rw [View.read_apply]
  show V m c main_v0 _ = V m c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 2048 + 1 * q.val = k.val; rw [e1, hk]; omega

/-- The W1ᵀ tile at (q, j) is W1ᵀ at row 2048·(t % 2) + q, column j. -/
theorem w1Tile_apply (c : Dev nD) (t : Fin cfg0.N) (q : Fin 2048) (j : Fin 256) (k : Fin 4096)
    (hk : k.val = 2048 * (t.val % 2) + q.val) :
    w1Tile m c t (ix2 q j) = w1t m c (ix2 k j) := by
  obtain ⟨-, -, e0, e1, -⟩ := idx_facts t
  show iblk m c 1 t (ix2 q j) = _
  unfold iblk
  rw [View.read_apply]
  show V m c main_v2 _ = V m c main_v2 _
  congr 1
  funext a
  apply Fin.ext
  match a with
  | ⟨0, _⟩ => show win0_1.index t (0 : Fin 2) * 2048 + 1 * q.val = k.val; rw [e0, hk]; omega
  | ⟨1, _⟩ => show win0_1.index t (1 : Fin 2) * 256 + 1 * j.val = j.val; rw [e1]; omega

/-- The hidden bias row's block is the row. -/
theorem b1Blk_apply (c : Dev nD) (t : Fin cfg0.N) (j : Fin 256) : b1Blk m c t (ix2 0 j) = b1row m c (ix2 0 j) := by
  obtain ⟨-, -, -, -, e0, e1, -⟩ := idx_facts t
  show iblk m c 2 t (ix2 0 j) = _
  unfold iblk
  rw [View.read_apply]
  show V m c main_v5 _ = V m c main_v5 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * j.val = j.val; rw [e1]; omega

/-- W2ᵀ's block is W2ᵀ. -/
theorem w2Blk_apply (c : Dev nD) (t : Fin cfg0.N) (j : Fin 256) (e : Fin 64) : w2Blk m c t (ix2 j e) = w2t m c (ix2 j e) := by
  obtain ⟨-, -, -, -, -, -, e0, e1, -⟩ := idx_facts t
  show iblk m c 3 t (ix2 j e) = _
  unfold iblk
  rw [View.read_apply]
  show V m c main_v4 _ = V m c main_v4 _
  congr 1
  funext a
  apply Fin.ext
  match a with
  | ⟨0, _⟩ => show win0_3.index t (0 : Fin 2) * 256 + 1 * j.val = j.val; rw [e0]; omega
  | ⟨1, _⟩ => show win0_3.index t (1 : Fin 2) * 64 + 1 * e.val = e.val; rw [e1]; omega

/-- The output bias row's block is the row. -/
theorem bBlk_apply (c : Dev nD) (t : Fin cfg0.N) (e : Fin 64) : bBlk m c t (ix2 0 e) = brow m c (ix2 0 e) := by
  obtain ⟨-, -, -, -, -, -, -, -, e0, e1, -⟩ := idx_facts t
  show iblk m c 4 t (ix2 0 e) = _
  unfold iblk
  rw [View.read_apply]
  show V m c main_v7 _ = V m c main_v7 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * e.val = e.val; rw [e1]; omega

/-! ## What the scratch block and the output block hold after a point -/

/-- After an even point the scratch block holds the partial product of that point's tiles. -/
theorem scratch_after_even (c : Dev nD) (s : Fin cfg0.N) (h0 : s.val % 2 = 0) :
    (outsAt0 m c s.val s.isLt).2 = k0_pay2 (tokTile m c s) (w1Tile m c s) := by
  have h1 : ¬s.val % 2 = 1 := by omega
  rw [outsAt0_A m c s h0 h1]
  dsimp only
  exact Pieces.scratch_first (F := Ideal) c (grid0.coords s) (ms0_0 s) (hs0_0 s) (ms0_1 s) (hs0_1 s) (ms0_2 s) (hs0_2 s)
    (ms0_3 s) (hs0_3 s) (ms0_4 s) (hs0_4 s) (ms0_5 s) (hs0_5 s) scM0_0 (Memref.isWhole_whole _) ((hcond0_0 s).mpr h0)
    (fun h => h1 ((hcond0_1 s).mp h)) (iblk m c 0 s) (iblk m c 1 s) (iblk m c 2 s) (iblk m c 3 s) (iblk m c 4 s)

/-- After an odd point the output block holds the epilogue of that point's tiles over what the point before left in
    the scratch block. -/
theorem out_after_odd (c : Dev nD) (t : Fin cfg0.N) (h1 : t.val % 2 = 1) :
    (outsAt0 m c t.val t.isLt).1
      = k0_pay3 (tokTile m c t) (w1Tile m c t) (outsAt0 m c (t.val - 1) (Nat.lt_of_le_of_lt (Nat.sub_le _ _) t.isLt)).2
          (b1Blk m c t) (w2Blk m c t) (bBlk m c t) := by
  have h0 : ¬t.val % 2 = 0 := by omega
  rw [outsAt0_B m c t h0 h1]
  dsimp only
  exact Pieces.out_second (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (fun h => h0 ((hcond0_0 t).mp h))
    ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-- The rectifier's zero word. -/
abbrev zeroWord : EReal := Ideal.ofBits .f32 0x00000000#32

/-- The array the run leaves: the split-contraction logits of the arrays the region finds. -/
abbrev flat (c : Dev nD) : S16384x64.Idx → EReal :=
  logitsSplit (tokens m c) (w1t m c) (w2t m c) zeroWord (b1row m c) (brow m c)

/-- The output block after an odd point t, at (p, e), is the logits at row 1024·(t / 2) + p, expert e. -/
theorem out_at (c : Dev nD) (t : Fin cfg0.N) (h1 : t.val % 2 = 1) (p : Fin 1024) (e : Fin 64) (r : Fin 16384)
    (hr : r.val = 1024 * (t.val / 2) + p.val) :
    (outsAt0 m c t.val t.isLt).1 (ix2 p e) = logitsSplitAt (tokens m c) (w1t m c) (w2t m c) zeroWord (b1row m c) (brow m c) r e := by
  have ht : 0 < t.val := by omega
  have hs : (⟨t.val - 1, Nat.lt_of_le_of_lt (Nat.sub_le _ _) t.isLt⟩ : Fin cfg0.N).val % 2 = 0 := by
    show (t.val - 1) % 2 = 0; omega
  rw [out_after_odd m c t h1]
  refine (Payload.epilogue_apply _ _ _ _ _ _ p e).trans ?_
  rw [scratch_after_even m c ⟨t.val - 1, Nat.lt_of_le_of_lt (Nat.sub_le _ _) t.isLt⟩ hs]
  unfold logitsSplitAt projLo projHi
  refine congrArg₂ (· + ·) (Finset.sum_congr rfl fun j _ => ?_) (bBlk_apply m c t e)
  refine congrArg₂ (· * ·) (congrArg (max · zeroWord) ?_) (w2Blk_apply m c t j e)
  refine congrArg₂ (· + ·) (congrArg₂ (· + ·) ?_ ?_) (b1Blk_apply m c t j)
  · refine (Payload.firstHalf_apply _ _ p j).trans (Finset.sum_congr rfl fun q _ => ?_)
    exact congrArg₂ (· * ·)
      (tokTile_apply m c _ p q r (lo q) (by show r.val = 1024 * ((t.val - 1) / 2) + p.val; omega)
        (by show q.val = 2048 * ((t.val - 1) % 2) + q.val; omega))
      (w1Tile_apply m c _ q j (lo q) (by show q.val = 2048 * ((t.val - 1) % 2) + q.val; omega))
  · refine Finset.sum_congr rfl fun q _ => ?_
    exact congrArg₂ (· * ·)
      (tokTile_apply m c t p q r (hi q) hr (by show 2048 + q.val = 2048 * (t.val % 2) + q.val; omega))
      (w1Tile_apply m c t q j (hi q) (by show 2048 + q.val = 2048 * (t.val % 2) + q.val; omega))

/-! ## The write-backs and the array after the run -/

/-- What an odd point writes back is its block of the logits. -/
theorem flushed_eq (c : Dev nD) (t : Fin cfg0.N) (hf : (cfg0.win 5).flush t = true) :
    (dats m 0 c).flushed 5 t = ((cfg0.win 5).blk t).view.read (Elt Ideal) (flat m c) := by
  have h1 : t.val % 2 = 1 := (flush0_5 t).mp hf
  have hN : t.val < 32 := lt_of_lt_of_eq t.isLt (show cfg0.N = 32 from N_0)
  obtain ⟨-, -, -, -, -, -, -, -, -, -, e0, e1⟩ := idx_facts t
  show (cfg0.win 5).cut (grid0.coords t) ((dats m 0 c).after 5 t) = _
  rw [after0_5]
  funext y
  obtain ⟨p, e, rfl⟩ : ∃ (p : Fin 1024) (e : Fin 64), y = ix2 p e := ⟨y 0, y 1, eq_ix2 y⟩
  have hemb : ((cfg0.win 5).blk t).view.emb (ix2 p e)
      = (ix2 (⟨1024 * (t.val / 2) + p.val, by have := p.isLt; omega⟩ : Fin 16384) e : S16384x64.Idx) := by
    funext a
    apply Fin.ext
    match a with
    | ⟨0, _⟩ => show win0_5.index t (0 : Fin 2) * 1024 + 1 * p.val = 1024 * (t.val / 2) + p.val; rw [e0]; omega
    | ⟨1, _⟩ => show win0_5.index t (1 : Fin 2) * 64 + 1 * e.val = e.val; rw [e1]; omega
  rw [View.read_apply, hemb]
  exact out_at m c t h1 p e _ rfl

/-- Every index of the [16384, 64] array is in the block some odd point writes back. -/
theorem cover (i : S16384x64.Idx) :
    ∃ t : Fin cfg0.N, (cfg0.win 5).flush t = true ∧ i ∈ ((cfg0.win 5).blk t).view.set := by
  have h0 : (i 0).val < 16384 := (i 0).isLt
  have h1 : (i 1).val < 64 := (i 1).isLt
  have hN : cfg0.N = 32 := N_0
  have hlt : 2 * ((i 0).val / 1024) + 1 < cfg0.N := by rw [hN]; omega
  obtain ⟨-, -, -, -, -, -, -, -, -, -, e0, e1⟩ := idx_facts ⟨2 * ((i 0).val / 1024) + 1, hlt⟩
  refine ⟨⟨2 * ((i 0).val / 1024) + 1, hlt⟩, (flush0_5 _).mpr (by show (2 * ((i 0).val / 1024) + 1) % 2 = 1; omega), ?_⟩
  show i ∈ ((View.whole main_v8).slice (win0_5.rect ⟨2 * ((i 0).val / 1024) + 1, hlt⟩)).set
  rw [View.set_slice_whole, Rect.mem_set_unit]
  intro a
  match a with
  | ⟨0, _⟩ =>
    show win0_5.index ⟨2 * ((i 0).val / 1024) + 1, hlt⟩ (0 : Fin 2) * 1024 ≤ (i 0).val
      ∧ (i 0).val < win0_5.index ⟨2 * ((i 0).val / 1024) + 1, hlt⟩ (0 : Fin 2) * 1024 + 1024
    rw [e0]; show (2 * ((i 0).val / 1024) + 1) / 2 * 1024 ≤ (i 0).val ∧ (i 0).val < (2 * ((i 0).val / 1024) + 1) / 2 * 1024 + 1024
    omega
  | ⟨1, _⟩ =>
    show win0_5.index ⟨2 * ((i 0).val / 1024) + 1, hlt⟩ (1 : Fin 2) * 64 ≤ (i 1).val
      ∧ (i 1).val < win0_5.index ⟨2 * ((i 0).val / 1024) + 1, hlt⟩ (1 : Fin 2) * 64 + 64
    rw [e1]; omega

/-- The result array after the run holds the split-contraction logits. -/
theorem final_flat (c : Dev nD) : (dats m 0 c).arrAt 5 cfg0.N = flat m c :=
  (dats m 0 c).arrAt_eq_of_cover 5 (flat m c) (flushed_eq m c) cover

/-! ## The arrays the region finds, from the arguments -/

/-- The tokens flattened: the first host line. -/
theorem tokens_eq (c : Dev nD) :
    tokens m c = shapeCast S16384x4096 (m ((c : Thread nD τ).loc main_arg0)) shapeCasts_S4x4096x4096_S16384x4096 := by
  show StableHlo.after hostOps0 (fun b => m (c, b)) (Proc.devRef .tc main_v0) = _
  after_results; rfl

/-- W1 transposed (its narrowing to bf16 is the identity on extended reals). -/
theorem w1t_eq (c : Dev nD) :
    w1t m c = transpose S4096x256 [1, 0] (m ((c : Thread nD τ).loc main_arg1)) transposes_S256x4096_S4096x256_1_0 := by
  show StableHlo.after hostOps0 (fun b => m (c, b)) (Proc.devRef .tc main_v2) = _
  after_results; rfl

/-- W2 transposed. -/
theorem w2t_eq (c : Dev nD) :
    w2t m c = transpose S256x64 [1, 0] (m ((c : Thread nD τ).loc main_arg3)) transposes_S64x256_S256x64_1_0 := by
  show StableHlo.after hostOps0 (fun b => m (c, b)) (Proc.devRef .tc main_v4) = _
  after_results; rfl

/-- The hidden bias row's entry j is b1[j]. -/
theorem b1row_apply (c : Dev nD) (j : Fin 256) :
    b1row m c (ix2 0 j) = m ((c : Thread nD τ).loc main_arg2) (ix1 j) := by
  have e : b1row m c = shapeCast S1x256 (m ((c : Thread nD τ).loc main_arg2)) shapeCasts_S256_S1x256 := by
    show StableHlo.after hostOps0 (fun b => m (c, b)) (Proc.devRef .tc main_v5) = _
    after_results; rfl
  rw [e]
  exact shapeCast_apply _ shapeCasts_S256_S1x256 (ix2 0 j) (ix1 j)
    (by rewrite [Shape.rowMajor_val_one, Shape.rowMajor_val_two]; show j.val = 0 * 256 + j.val; omega)

/-- The two output bias vectors, at their literal type. -/
abbrev b2v (c : Dev nD) : S64.Idx → EReal := m ((c : Thread nD τ).loc main_arg4)
abbrev ebv (c : Dev nD) : S64.Idx → EReal := m ((c : Thread nD τ).loc main_arg5)

/-- The output bias row's entry e is b2[e] + eb[e]. -/
theorem brow_apply (c : Dev nD) (e : Fin 64) :
    brow m c (ix2 0 e) = b2v m c (ix1 e) + ebv m c (ix1 e) := by
  have h : brow m c = shapeCast S1x64 (addf (b2v m c : FVec Ideal S64 .f32) (ebv m c : FVec Ideal S64 .f32) : FVec Ideal S64 .f32) shapeCasts_S64_S1x64 := by
    show StableHlo.after hostOps0 (fun b => m (c, b)) (Proc.devRef .tc main_v7) = _
    after_results; rfl
  rw [h]
  exact shapeCast_apply _ shapeCasts_S64_S1x64 (ix2 0 e) (ix1 e)
    (by rewrite [Shape.rowMajor_val_one, Shape.rowMajor_val_two]; show e.val = 0 * 64 + e.val; omega)

/-- The specification's logits of the arguments, reshaped as the program returns them. -/
abbrev result (c : Dev nD) : S4x4096x64.Idx → EReal :=
  shapeCast S4x4096x64
    (logits (shapeCast S16384x4096 (m ((c : Thread nD τ).loc main_arg0)) shapeCasts_S4x4096x4096_S16384x4096)
      (transpose S4096x256 [1, 0] (m ((c : Thread nD τ).loc main_arg1)) transposes_S256x4096_S4096x256_1_0)
      (transpose S256x64 [1, 0] (m ((c : Thread nD τ).loc main_arg3)) transposes_S64x256_S256x64_1_0)
      zeroWord (m ((c : Thread nD τ).loc main_arg2)) (m ((c : Thread nD τ).loc main_arg4)) (m ((c : Thread nD τ).loc main_arg5)))
    shapeCasts_S16384x64_S4x4096x64

/-- The array after the run is the specification's logits of the arguments. -/
theorem final_logits (c : Dev nD) :
    (dats m 0 c).arrAt 5 cfg0.N
      = logits (shapeCast S16384x4096 (m ((c : Thread nD τ).loc main_arg0)) shapeCasts_S4x4096x4096_S16384x4096)
          (transpose S4096x256 [1, 0] (m ((c : Thread nD τ).loc main_arg1)) transposes_S256x4096_S4096x256_1_0)
          (transpose S256x64 [1, 0] (m ((c : Thread nD τ).loc main_arg3)) transposes_S64x256_S256x64_1_0)
          zeroWord (m ((c : Thread nD τ).loc main_arg2)) (m ((c : Thread nD τ).loc main_arg4)) (m ((c : Thread nD τ).loc main_arg5)) := by
  rw [final_flat]
  show logitsSplit (tokens m c) (w1t m c) (w2t m c) zeroWord (b1row m c) (brow m c) = _
  rw [tokens_eq, w1t_eq, w2t_eq]
  exact logitsSplit_eq _ _ _ _ _ _ _ _ _ (b1row_apply m c) (brow_apply m c)

/-! ## The line after the region, and the run -/

/-- The program's result buffer after the line that follows the region: the array reshaped to [4, 4096, 64]. -/
theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = (dats m 0 c).arrAt 5 cfg0.N := Pipeline.withArrays_arr spec0 launch0.win.arr_inj c _ _ 5
  rw [hw, final_logits]
  rfl

/-- The run, read: the result buffer ends at the specification's logits of the arguments, reshaped, and the
    arguments are unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RouterValue

end
-- ==== Proof.lean ====
/-
  The certificate of the fused two-layer router: a Pallas kernel that contracts the tokens with W1ᵀ in two halves
  of the hidden dimension's 4096 inputs, carrying the first half's partial products in a scratch block, then adds
  the hidden bias, rectifies, contracts with W2ᵀ and adds the two output biases (summed beforehand), against the
  jnp reference relu(x·W1ᵀ + b1)·W2ᵀ + b2 + expert_bias.

  Over the extended reals both programs end with the same array: RouterSpec's logits of the arguments, reshaped to
  [4, 4096, 64]. The reference's side is its generated run read operation by operation (RefSide); the kernel's side
  is the generated frame run opened point by point (Pieces, Payload, KernelValue). The two forms differ by splitting
  a finite sum in two and re-associating one addition, which hold on every extended real, so the precondition is
  never opened. The three frames are the generated ones (the reference's is its run with the result dropped), and
  the idealization rewrote nothing.
-/
import proofs.«128491_g21182778703903_cont_8to1_173_18_alg».proof.Defs
import proofs.«128491_g21182778703903_cont_8to1_173_18_alg».proof.Proof.Gen.Kernel
import proofs.«128491_g21182778703903_cont_8to1_173_18_alg».proof.Proof.Gen.Kernel.Skeleton
import proofs.«128491_g21182778703903_cont_8to1_173_18_alg».proof.Proof.Gen.Kernel.Launch
import proofs.«128491_g21182778703903_cont_8to1_173_18_alg».proof.Proof.Gen.Kernel.Points
import proofs.«128491_g21182778703903_cont_8to1_173_18_alg».proof.Proof.Gen.Kernel.Frame
import proofs.«128491_g21182778703903_cont_8to1_173_18_alg».proof.Proof.Gen.KernelIdeal
import proofs.«128491_g21182778703903_cont_8to1_173_18_alg».proof.Proof.Gen.KernelIdeal.Skeleton
import proofs.«128491_g21182778703903_cont_8to1_173_18_alg».proof.Proof.Gen.KernelIdeal.Launch
import proofs.«128491_g21182778703903_cont_8to1_173_18_alg».proof.Proof.Gen.KernelIdeal.Points
import proofs.«128491_g21182778703903_cont_8to1_173_18_alg».proof.Proof.Gen.KernelIdeal.Frame
import proofs.«128491_g21182778703903_cont_8to1_173_18_alg».proof.Proof.Gen.ReferenceIdeal
import proofs.«128491_g21182778703903_cont_8to1_173_18_alg».proof.Proof.Gen.ReferenceIdeal.Run
import proofs.«128491_g21182778703903_cont_8to1_173_18_alg».proof.Proof.Gen.ReferenceIdeal.Read
import proofs.«128491_g21182778703903_cont_8to1_173_18_alg».proof.Proof.Gen.Pre_finite_inputs
import proofs.«128491_g21182778703903_cont_8to1_173_18_alg».proof.Proof.RefSide
import proofs.«128491_g21182778703903_cont_8to1_173_18_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the specification's logits of those
    arguments reshaped to [4, 4096, 64]. -/
theorem algebraic : Cert.algebraic_KernelIdeal_ReferenceIdeal := by
  intro m ρ m' ρ' _ hagree
  refine ⟨fun c => Cert.KernelIdeal.RouterValue.result m c, Cert.KernelIdeal.RouterValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  unfold Cert.ReferenceIdeal.Read.val_main_v15
  rw [Cert.ReferenceIdeal.RefValue.flat_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
